-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S512x64 .f32 .bf16
  ∧ IdealRules.truncf_extf.Statement Cert.KernelIdeal.S64x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S1024x128 : Shape := ⟨2, ![1024, 128]⟩
abbrev S64x128 : Shape := ⟨2, ![64, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S2048x128 .f32) (main_arg1 : FVec F S1024x128 .f32) (main_arg2 : FVec F S64x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S2048x128 : Shape := ⟨2, ![2048, 128]⟩
abbrev S1024x128 : Shape := ⟨2, ![1024, 128]⟩
abbrev S64x128 : Shape := ⟨2, ![64, 128]⟩
abbrev S2048x1024 : Shape := ⟨2, ![2048, 1024]⟩
abbrev S512x128 : Shape := ⟨2, ![512, 128]⟩
abbrev S512x1024 : Shape := ⟨2, ![512, 1024]⟩
abbrev S512x64 : Shape := ⟨2, ![512, 64]⟩
abbrev S64x1024 : Shape := ⟨2, ![64, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x128, .f32⟩
  | .hbm, ⟨1, _⟩ => ⟨S1024x128, .f32⟩
  | .hbm, ⟨2, _⟩ => ⟨S64x128, .f32⟩
  | .hbm, ⟨3, _⟩ => ⟨S2048x1024, .f32⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S64x128, .f32⟩
  | .local _ .vmem, ⟨4, _⟩ => ⟨S512x1024, .f32⟩
  | .local _ .vmem, ⟨5, _⟩ => ⟨S512x1024, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S64x128_S64x128_0_0 : ∀ a, (![0, 0] : Fin 2 → Nat) a + S64x128.size a ≤ S64x128.size a
  h_S64x128 : 0 < S64x128.numel
  reduces_S512x64_S512 : S512x64.Reduces [1] S512
  shapeCasts_S512_S512x1 : S512.ShapeCasts S512x1
  reduces_S64x1024_S1024 : S64x1024.Reduces [0] S1024
  shapeCasts_S1024_S1x1024 : S1024.ShapeCasts S1x1024
  broadcasts_S512x1_S512x1024 : S512x1.Broadcasts S512x1024
  broadcasts_S1x1024_S512x1024 : S1x1024.Broadcasts S512x1024
  reduces_S512x1024_S512 : S512x1024.Reduces [1] S512
  inb_S512x1024_S512x1024_0_0 : ∀ a, (![0, 0] : Fin 2 → Nat) a + S512x1024.size a ≤ S512x1024.size a
  h_S512x1024 : 0 < S512x1024.numel
  dot_S512x128_S64x128_S512x64_1_1_0_0_n_n_wf : DotDims.WF S512x128 S64x128 S512x64 [1] [1] [0] [0] [] []
  dot_S64x128_S1024x128_S64x1024_1_1_0_0_n_n_wf : DotDims.WF S64x128 S1024x128 S64x1024 [1] [1] [0] [0] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x1024.size a
  hwx0_3 : ∀ i : grid0.Coords, EltTy.bits .f32 = 32 ∨ (Rect.block (s := S2048x1024) S512x1024.size (cc0_transform_3 i) (hinb0_3 i)).WholeWords (EltTy.packing .f32)

variable [Facts₀]

def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S64x128_S1024x128_S64x1024_1_1_0_0_n_n : DotDims S64x128 S1024x128 S64x1024 where
  lhsContracting := [1]
  rhsContracting := [1]
  lhsNonContracting := [0]
  rhsNonContracting := [0]
  lhsBatch := []
  rhsBatch := []
  wf := dot_S64x128_S1024x128_S64x1024_1_1_0_0_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x128 : Shape := ⟨2, ![2048, 128]⟩
abbrev S1024x128 : Shape := ⟨2, ![1024, 128]⟩
abbrev S64x128 : Shape := ⟨2, ![64, 128]⟩
abbrev S2048x1x128 : Shape := ⟨3, ![2048, 1, 128]⟩
abbrev S1x1024x128 : Shape := ⟨3, ![1, 1024, 128]⟩
abbrev S2048x1024x128 : Shape := ⟨3, ![2048, 1024, 128]⟩
abbrev S2048x1024x64 : Shape := ⟨3, ![2048, 1024, 64]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S1024x128, .f32⟩
  | .hbm, ⟨2, _⟩ => ⟨S64x128, .f32⟩
  | .hbm, ⟨3, _⟩ => ⟨S2048x1x128, .f32⟩
  | .hbm, ⟨4, _⟩ => ⟨S1x1024x128, .f32⟩
  | .hbm, ⟨5, _⟩ => ⟨S2048x1024x128, .f32⟩
  | .hbm, ⟨6, _⟩ => ⟨S2048x1024x128, .f32⟩
  | .hbm, ⟨7, _⟩ => ⟨S2048x1024x128, .f32⟩
  | .hbm, ⟨8, _⟩ => ⟨S2048x1024x64, .f32⟩
  | .hbm, ⟨9, _⟩ => ⟨S2048x1024x64, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S2048x1024, .f32⟩
  | .hbm, ⟨30, _⟩ => ⟨S2048x1024, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S2048x128_S2048x1x128_0_2 : S2048x128.BroadcastsInDim S2048x1x128 (![0, 2] : Fin 2 → Fin S2048x1x128.rank)
  bcast_S1024x128_S1x1024x128_1_2 : S1024x128.BroadcastsInDim S1x1024x128 (![1, 2] : Fin 2 → Fin S1x1024x128.rank)
  bcast_S2048x1x128_S2048x1024x128_0_1_2 : S2048x1x128.BroadcastsInDim S2048x1024x128 (![0, 1, 2] : Fin 3 → Fin S2048x1024x128.rank)
  bcast_S1x1024x128_S2048x1024x128_0_1_2 : S1x1024x128.BroadcastsInDim S2048x1024x128 (![0, 1, 2] : Fin 3 → Fin S2048x1024x128.rank)
  reducesTo_S2048x1024x64_S2048x1024_d2 : S2048x1024x64.ReducesTo [2] S2048x1024
  h_S_ : 0 < S_.numel
  bcast_S_S2048x1024 : S_.BroadcastsInDim S2048x1024 (![] : Fin 0 → Fin S2048x1024.rank)
  reducesTo_S2048x1024_S2048_d1 : S2048x1024.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  dot_S2048x1024x128_S64x128_S2048x1024x64_2_1_01_0_n_n_wf : DotDims.WF S2048x1024x128 S64x128 S2048x1024x64 [2] [1] [0, 1] [0] [] []

variable [Facts₀]

def dot_S2048x1024x128_S64x128_S2048x1024x64_2_1_01_0_n_n : DotDims S2048x1024x128 S64x128 S2048x1024x64 where
  lhsContracting := [2]
  rhsContracting := [1]
  lhsNonContracting := [0, 1]
  rhsNonContracting := [0]
  lhsBatch := []
  rhsBatch := []
  wf := dot_S2048x1024x128_S64x128_S2048x1024x64_2_1_01_0_n_n_wf

class Facts : Prop extends Facts₀ where

variable [Facts]
-- ==== Proof.RealLaws.lean ====
/-
  The real-number laws that join the two programs.

  * a finite sum of reals, read in the extended reals, is the sum of the readings;
  * ‖a‖² + ‖b‖² − 2⟨a, b⟩ = ‖a − b‖², and a projection of a difference is the difference of the projections:
    together they turn the three small matrix products into the squared distance of the projected difference;
  * a softmax does not change when one real is subtracted from every score;
  * the running maximum, started at −∞, of finitely many reals over a nonempty index set is a real.
-/
import Idealize.ShloMosaic.PureOps.Ideal

namespace Cert.RealLaws

/-- The reading of a finite real sum in the extended reals is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type, oriented from the sum of readings to the reading of the sum. -/
theorem sum_coe {ι : Type*} [Fintype ι] (f : ι → ℝ) :
    (∑ i, (f i : EReal)) = ((∑ i, f i : ℝ) : EReal) := (coe_sum Finset.univ f).symm

/-- ‖a‖² + ‖b‖² − 2⟨a, b⟩ = ‖a − b‖². -/
theorem sq_expand {ι : Type*} [Fintype ι] (a b : ι → ℝ) :
    (∑ c, a c * a c) + (∑ c, b c * b c) - 2 * ∑ c, a c * b c = ∑ c, (a c - b c) * (a c - b c) := by
  rw [Finset.mul_sum, ← Finset.sum_add_distrib, ← Finset.sum_sub_distrib]
  exact Finset.sum_congr rfl fun c _ => by ring

/-- Projecting `x` and `y` onto `w` and subtracting is projecting `x − y`. -/
theorem proj_sub {ι : Type*} [Fintype ι] (x y w : ι → ℝ) :
    (∑ d, x d * w d) - (∑ d, w d * y d) = ∑ d, (x d - y d) * w d := by
  rw [← Finset.sum_sub_distrib]
  exact Finset.sum_congr rfl fun d _ => by ring

/-- A softmax is unchanged when one real `M` is subtracted from every score. -/
theorem softmax_shift {ι : Type*} [Fintype ι] (s : ι → ℝ) (M : ℝ) (j : ι) :
    Real.exp (s j - M) / ∑ i, Real.exp (s i - M) = Real.exp (s j) / ∑ i, Real.exp (s i) := by
  simp only [Real.exp_sub]
  rw [← Finset.sum_div, div_div_div_cancel_right₀ (Real.exp_ne_zero M)]

/-- The running maximum from −∞ over a nonempty finite set of reals is a real. -/
theorem fold_max_coe_of_nonempty {ι : Type*} (f : ι → ℝ) (s : Finset ι) (hs : s.Nonempty) :
    ∃ M : ℝ, s.fold max (⊥ : EReal) (fun i => (f i : EReal)) = (M : EReal) := by
  induction hs using Finset.Nonempty.cons_induction with
  | singleton a => exact ⟨f a, by rw [Finset.fold_singleton]; exact max_bot_right _⟩
  | cons a s ha hs ih =>
    obtain ⟨M, hM⟩ := ih
    exact ⟨max (f a) M, by rw [Finset.fold_cons, hM]; exact (EReal.coe_strictMono.monotone.map_max).symm⟩

/-- So it is over a whole nonempty finite type. -/
theorem fold_max_coe {ι : Type*} [Fintype ι] [Nonempty ι] (f : ι → ℝ) :
    ∃ M : ℝ, (Finset.univ : Finset ι).fold max (⊥ : EReal) (fun i => (f i : EReal)) = (M : EReal) :=
  fold_max_coe_of_nonempty f Finset.univ Finset.univ_nonempty

end Cert.RealLaws
-- ==== Proof.Consts.lean ====
/-
  The float literals the two programs spell, as the extended reals their bit patterns denote:
  `2`, `-1/2`, `1/2` and `-∞` (the zero pattern is the library's `Ideal.ofBits_zero_f32`).
-/
import Idealize.ShloMosaic.PureOps.Ideal

noncomputable section

namespace Cert.Consts

open Idealize.ShloMosaic

/-- `2.0` denotes the real `2`. -/
theorem ofBits_two : Ideal.ofBits .f32 0x40000000#32 = ((2 : ℝ) : EReal) := by
  simp [Ideal.ofBits, Ideal.ieee, -EReal.coe_mul]; norm_num

/-- `-0.5` denotes the real `-1/2`. -/
theorem ofBits_neg_half : Ideal.ofBits .f32 0xBF000000#32 = ((-(1 / 2) : ℝ) : EReal) := by
  simp [Ideal.ofBits, Ideal.ieee, -EReal.coe_mul]; norm_num

/-- `0.5` denotes the real `1/2`. -/
theorem ofBits_half : Ideal.ofBits .f32 0x3F000000#32 = ((1 / 2 : ℝ) : EReal) := by
  simp [Ideal.ofBits, Ideal.ieee, -EReal.coe_mul]; norm_num

/-- The negative-infinity pattern denotes `⊥`. -/
theorem ofBits_neg_inf : Ideal.ofBits .f32 0xFF800000#32 = (⊥ : EReal) := by
  simp [Ideal.ofBits, Ideal.ieee]

end Cert.Consts

end
-- ==== Proof.Spec.lean ====
/-
  The result as ONE function of the three argument arrays, and what it is on real inputs.

  For a query row `x` (128 reals), the keys `k` (1024 × 128) and the weight `W` (64 × 128):
    a_c   = ∑_d x_d · W_{c,d}                  (the row projected),
    b_{c,j} = ∑_d W_{c,d} · k_{j,d}            (key `j` projected),
    dist²_j = ∑_c a_c² + ∑_c b_{c,j}² − 2 · ∑_c a_c · b_{c,j},
    e_j   = exp (√(max dist²_j 0) · (−1/2)),
    out_j = e_j / ∑_{j'} e_{j'}.
  `rowOut` is that, on the extended reals; `G` applies it to row `n` of the queries at every `(n, j)`.

  On REAL inputs (`rowOut_coe`) every intermediate is a real: dist²_j is the squared length of the projected
  difference `∑_c (∑_d (x_d − k_{j,d}) · W_{c,d})²` (so the `max` with zero does nothing and the root is the real
  root), and `out_j` is the real softmax of `−√dist²_j / 2` over `j`.
-/
import Idealize.ShloMosaic.PureOps.Ideal
import Idealize.ShloMosaic.PureOps.Ideal.Laws
import Idealize.ShloMosaic.Lib.ValueIdx
import proofs.«427406_j33509334843946_3_alg».proof.Proof.RealLaws
import proofs.«427406_j33509334843946_3_alg».proof.Proof.Consts

noncomputable section

namespace Cert.Spec

open Idealize.ShloMosaic Idealize.ShloMosaic.ValueIdx

/-- The shapes of the keys, the weight, the queries and the result. -/
abbrev SK : Shape := ⟨2, ![1024, 128]⟩
abbrev SW : Shape := ⟨2, ![64, 128]⟩
abbrev SQ : Shape := ⟨2, ![2048, 128]⟩
abbrev SO : Shape := ⟨2, ![2048, 1024]⟩

/-! ## On the extended reals -/

/-- The query row projected onto feature `c`. -/
def projQ (x : Fin 128 → EReal) (W : SW.Idx → EReal) (c : Fin 64) : EReal :=
  ∑ d : Fin 128, x d * W (ix2 c d)

/-- Key `j` projected onto feature `c`. -/
def projK (k : SK.Idx → EReal) (W : SW.Idx → EReal) (c : Fin 64) (j : Fin 1024) : EReal :=
  ∑ d : Fin 128, W (ix2 c d) * k (ix2 j d)

/-- The squared distance of the two projections, expanded: two squared lengths minus twice the inner product. -/
def dist2 (x : Fin 128 → EReal) (k : SK.Idx → EReal) (W : SW.Idx → EReal) (j : Fin 1024) : EReal :=
  ((∑ c : Fin 64, projQ x W c * projQ x W c) + ∑ c : Fin 64, projK k W c j * projK k W c j)
    - Ideal.ofBits .f32 0x40000000#32 * ∑ c : Fin 64, projQ x W c * projK k W c j

/-- The unnormalised weight of key `j`: the exponential of minus half the distance. -/
def expScore (x : Fin 128 → EReal) (k : SK.Idx → EReal) (W : SW.Idx → EReal) (j : Fin 1024) : EReal :=
  Ideal.exp (Ideal.sqrt (max (dist2 x k W j) (Ideal.ofBits .f32 0x00000000#32)) * Ideal.ofBits .f32 0xBF000000#32)

/-- One row of the result: the weights normalised by their sum over the keys. -/
def rowOut (x : Fin 128 → EReal) (k : SK.Idx → EReal) (W : SW.Idx → EReal) (j : Fin 1024) : EReal :=
  Ideal.div (expScore x k W j) (∑ j' : Fin 1024, expScore x k W j')

/-- The whole result: entry `(n, j)` is row `n` of the queries against key `j`. -/
def G (q : SQ.Idx → EReal) (k : SK.Idx → EReal) (W : SW.Idx → EReal) : SO.Idx → EReal :=
  fun i => rowOut (fun d => q (ix2 (i 0) d)) k W (i 1)

/-! ## On the reals -/

/-- The projected difference of the row and key `j`, at feature `c`. -/
def projR (x : Fin 128 → ℝ) (k : SK.Idx → ℝ) (W : SW.Idx → ℝ) (j : Fin 1024) (c : Fin 64) : ℝ :=
  ∑ d : Fin 128, (x d - k (ix2 j d)) * W (ix2 c d)

/-- Its squared length. -/
def distR (x : Fin 128 → ℝ) (k : SK.Idx → ℝ) (W : SW.Idx → ℝ) (j : Fin 1024) : ℝ :=
  ∑ c : Fin 64, projR x k W j c * projR x k W j c

theorem distR_nonneg (x : Fin 128 → ℝ) (k : SK.Idx → ℝ) (W : SW.Idx → ℝ) (j : Fin 1024) : 0 ≤ distR x k W j :=
  Finset.sum_nonneg fun c _ => mul_self_nonneg _

/-- The score of key `j`: minus half the distance. -/
def scoreR (x : Fin 128 → ℝ) (k : SK.Idx → ℝ) (W : SW.Idx → ℝ) (j : Fin 1024) : ℝ :=
  -(Real.sqrt (distR x k W j)) * (1 / 2)

/-- The softmax of the scores over the keys. -/
def rowR (x : Fin 128 → ℝ) (k : SK.Idx → ℝ) (W : SW.Idx → ℝ) (j : Fin 1024) : ℝ :=
  Real.exp (scoreR x k W j) / ∑ j' : Fin 1024, Real.exp (scoreR x k W j')

theorem sum_exp_pos (x : Fin 128 → ℝ) (k : SK.Idx → ℝ) (W : SW.Idx → ℝ) :
    0 < ∑ j' : Fin 1024, Real.exp (scoreR x k W j') :=
  Finset.sum_pos (fun j _ => Real.exp_pos _) ⟨0, Finset.mem_univ _⟩

/-! ## The extended-real form on real inputs -/

section
variable (x : Fin 128 → ℝ) (k : SK.Idx → ℝ) (W : SW.Idx → ℝ)

theorem projQ_coe (c : Fin 64) :
    projQ (fun d => (x d : EReal)) (fun i => (W i : EReal)) c = ((∑ d : Fin 128, x d * W (ix2 c d) : ℝ) : EReal) := by
  unfold projQ
  rw [← RealLaws.sum_coe]
  exact Finset.sum_congr rfl fun d _ => (EReal.coe_mul _ _).symm

theorem projK_coe (c : Fin 64) (j : Fin 1024) :
    projK (fun i => (k i : EReal)) (fun i => (W i : EReal)) c j = ((∑ d : Fin 128, W (ix2 c d) * k (ix2 j d) : ℝ) : EReal) := by
  unfold projK
  rw [← RealLaws.sum_coe]
  exact Finset.sum_congr rfl fun d _ => (EReal.coe_mul _ _).symm

/-- The expanded form is the squared length of the projected difference. -/
theorem dist2_coe (j : Fin 1024) :
    dist2 (fun d => (x d : EReal)) (fun i => (k i : EReal)) (fun i => (W i : EReal)) j = ((distR x k W j : ℝ) : EReal) := by
  unfold dist2
  simp only [projQ_coe, projK_coe, Consts.ofBits_two]
  simp only [← EReal.coe_mul, RealLaws.sum_coe, ← EReal.coe_add, ← EReal.coe_sub]
  refine congrArg _ ?_
  rw [RealLaws.sq_expand]
  unfold distR projR
  exact Finset.sum_congr rfl fun c _ => by rw [RealLaws.proj_sub]

/-- The weight of key `j` is the real exponential of its score. -/
theorem expScore_coe (j : Fin 1024) :
    expScore (fun d => (x d : EReal)) (fun i => (k i : EReal)) (fun i => (W i : EReal)) j
      = ((Real.exp (scoreR x k W j) : ℝ) : EReal) := by
  unfold expScore
  rw [dist2_coe, Ideal.ofBits_zero_f32, max_eq_left (EReal.coe_nonneg.mpr (distR_nonneg x k W j)),
    Ideal.sqrt_coe, if_neg (not_lt.mpr (distR_nonneg x k W j)), Consts.ofBits_neg_half, ← EReal.coe_mul, Ideal.exp_coe]
  unfold scoreR
  exact congrArg _ (congrArg Real.exp (by ring))

/-- The row of the result is the real softmax row. -/
theorem rowOut_coe (j : Fin 1024) :
    rowOut (fun d => (x d : EReal)) (fun i => (k i : EReal)) (fun i => (W i : EReal)) j = ((rowR x k W j : ℝ) : EReal) := by
  unfold rowOut
  simp only [expScore_coe]
  rw [RealLaws.sum_coe, Ideal.div_coe (sum_exp_pos x k W).ne', ← EReal.coe_mul]
  unfold rowR
  exact congrArg _ (by rw [mul_one_div])

end

end Cert.Spec

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KernelPayload.lean ====
/-
  The kernel body's one store, read at an index.

  The body loads a block of 512 query rows `x0`, all the keys `x1` and the weight `x2`, and stores
  `e / rowsum e` where `e = exp (√(max (‖a_r‖² + ‖b_j‖² − 2 a_r·b_j) 0) · (−1/2))`, `a = x0 · x2ᵀ` (512 × 64) and
  `b = x2 · x1ᵀ` (64 × 1024); the format changes between the products are the identity on the extended reals.
  Entry `(r, j)` of the stored block therefore depends on row `r` of `x0` only, and is `Spec.rowOut` of that row
  against the keys and the weight, at `j` (`pay_apply`).
-/
import proofs.«427406_j33509334843946_3_alg».proof.Proof.Gen.KernelIdeal.Skeleton
import proofs.«427406_j33509334843946_3_alg».proof.Proof.Spec
import proofs.«427406_j33509334843946_3_alg».proof.Proof.LibKeepdims
import Idealize.ShloMosaic.Lib.ValueIdx
import Idealize.ShloMosaic.Lib.ValueLayout
import Idealize.ShloMosaic.PureOps.Ideal.Laws

set_option maxRecDepth 65536

noncomputable section

namespace Cert.KernelIdeal.Body

open Cert.KernelIdeal Cert.KernelIdeal.Gen Idealize.ShloMosaic Idealize.ShloMosaic.ValueIdx Idealize.SL.Sem

/-! ## The three matrix products: which operand entries meet at an output index -/

theorem lhs_qW_free (i : S512x64.Idx) (q : dot_S512x128_S64x128_S512x64_1_1_0_0_n_n.contr.Idx) :
    (dot_S512x128_S64x128_S512x64_1_1_0_0_n_n.lhsIdx i q 0).val = (i 0).val := by
  unfold DotDims.lhsIdx
  rw [dif_neg (show ¬(0 : Fin S512x128.rank) ∈ dot_S512x128_S64x128_S512x64_1_1_0_0_n_n.lhsBatch by decide), dif_pos (show (0 : Fin S512x128.rank) ∈ dot_S512x128_S64x128_S512x64_1_1_0_0_n_n.lhsNonContracting by decide)]
  rfl
theorem lhs_qW_contr (i : S512x64.Idx) (q : dot_S512x128_S64x128_S512x64_1_1_0_0_n_n.contr.Idx) :
    (dot_S512x128_S64x128_S512x64_1_1_0_0_n_n.lhsIdx i q 1).val = (q ⟨0, by decide⟩).val :=
  dot_S512x128_S64x128_S512x64_1_1_0_0_n_n.lhsIdx_val_of_single rfl i q
theorem rhs_qW_free (i : S512x64.Idx) (q : dot_S512x128_S64x128_S512x64_1_1_0_0_n_n.contr.Idx) :
    (dot_S512x128_S64x128_S512x64_1_1_0_0_n_n.rhsIdx i q 0).val = (i 1).val := by
  unfold DotDims.rhsIdx
  rw [dif_neg (show ¬(0 : Fin S64x128.rank) ∈ dot_S512x128_S64x128_S512x64_1_1_0_0_n_n.rhsBatch by decide), dif_pos (show (0 : Fin S64x128.rank) ∈ dot_S512x128_S64x128_S512x64_1_1_0_0_n_n.rhsNonContracting by decide)]
  rfl
theorem rhs_qW_contr (i : S512x64.Idx) (q : dot_S512x128_S64x128_S512x64_1_1_0_0_n_n.contr.Idx) :
    (dot_S512x128_S64x128_S512x64_1_1_0_0_n_n.rhsIdx i q 1).val = (q ⟨0, by decide⟩).val :=
  dot_S512x128_S64x128_S512x64_1_1_0_0_n_n.rhsIdx_val_of_single rfl i q

theorem lhs_kW_free (i : S64x1024.Idx) (q : dot_S64x128_S1024x128_S64x1024_1_1_0_0_n_n.contr.Idx) :
    (dot_S64x128_S1024x128_S64x1024_1_1_0_0_n_n.lhsIdx i q 0).val = (i 0).val := by
  unfold DotDims.lhsIdx
  rw [dif_neg (show ¬(0 : Fin S64x128.rank) ∈ dot_S64x128_S1024x128_S64x1024_1_1_0_0_n_n.lhsBatch by decide), dif_pos (show (0 : Fin S64x128.rank) ∈ dot_S64x128_S1024x128_S64x1024_1_1_0_0_n_n.lhsNonContracting by decide)]
  rfl
theorem lhs_kW_contr (i : S64x1024.Idx) (q : dot_S64x128_S1024x128_S64x1024_1_1_0_0_n_n.contr.Idx) :
    (dot_S64x128_S1024x128_S64x1024_1_1_0_0_n_n.lhsIdx i q 1).val = (q ⟨0, by decide⟩).val :=
  dot_S64x128_S1024x128_S64x1024_1_1_0_0_n_n.lhsIdx_val_of_single rfl i q
theorem rhs_kW_free (i : S64x1024.Idx) (q : dot_S64x128_S1024x128_S64x1024_1_1_0_0_n_n.contr.Idx) :
    (dot_S64x128_S1024x128_S64x1024_1_1_0_0_n_n.rhsIdx i q 0).val = (i 1).val := by
  unfold DotDims.rhsIdx
  rw [dif_neg (show ¬(0 : Fin S1024x128.rank) ∈ dot_S64x128_S1024x128_S64x1024_1_1_0_0_n_n.rhsBatch by decide), dif_pos (show (0 : Fin S1024x128.rank) ∈ dot_S64x128_S1024x128_S64x1024_1_1_0_0_n_n.rhsNonContracting by decide)]
  rfl
theorem rhs_kW_contr (i : S64x1024.Idx) (q : dot_S64x128_S1024x128_S64x1024_1_1_0_0_n_n.contr.Idx) :
    (dot_S64x128_S1024x128_S64x1024_1_1_0_0_n_n.rhsIdx i q 1).val = (q ⟨0, by decide⟩).val :=
  dot_S64x128_S1024x128_S64x1024_1_1_0_0_n_n.rhsIdx_val_of_single rfl i q

theorem lhs_cross_free (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhs_cross_contr (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhs_cross_free (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl
theorem rhs_cross_contr (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q

/-! ## The pieces of the body -/

/-- The query block projected: `x0 · x2ᵀ`. -/
def qW (x0 : Vec Ideal S512x128 .f32) (x2 : Vec Ideal S64x128 .f32) : FVec Ideal S512x64 .f32 :=
  matmul dot_S512x128_S64x128_S512x64_1_1_0_0_n_n none (truncf .bf16 x0 bitsLt_bf16_f32) (truncf .bf16 x2 bitsLt_bf16_f32) (constant S512x64 .f32 0x00000000#32)

/-- The keys projected, features by keys: `x2 · x1ᵀ`. -/
def kW (x1 : Vec Ideal S1024x128 .f32) (x2 : Vec Ideal S64x128 .f32) : FVec Ideal S64x1024 .f32 :=
  matmul dot_S64x128_S1024x128_S64x1024_1_1_0_0_n_n none (truncf .bf16 x2 bitsLt_bf16_f32) (truncf .bf16 x1 bitsLt_bf16_f32) (constant S64x1024 .f32 0x00000000#32)

/-- The inner products of projected rows and projected keys: `A · B`. -/
def cross (A : FVec Ideal S512x64 .f32) (B : FVec Ideal S64x1024 .f32) : FVec Ideal S512x1024 .f32 :=
  matmul dot_S512x64_S64x1024_S512x1024_1_0_0_1_n_n none (truncf .bf16 A bitsLt_bf16_f32) (truncf .bf16 B bitsLt_bf16_f32) (constant S512x1024 .f32 0x00000000#32)

/-- The squared length of each projected row, kept as a column and spread over the block. -/
def rowNorm (A : FVec Ideal S512x64 .f32) : FVec Ideal S512x1024 .f32 :=
  broadcastTo S512x1024 (shapeCast S512x1 (multiReduction .add [1] S512 (mulf A A) 0x00000000#32 reduces_S512x64_S512 (.inl rfl) rfl) shapeCasts_S512_S512x1) broadcasts_S512x1_S512x1024

/-- The squared length of each projected key, kept as a row and spread over the block. -/
def colNorm (B : FVec Ideal S64x1024 .f32) : FVec Ideal S512x1024 .f32 :=
  broadcastTo S512x1024 (shapeCast S1x1024 (multiReduction .add [0] S1024 (mulf B B) 0x00000000#32 reduces_S64x1024_S1024 (.inl rfl) rfl) shapeCasts_S1024_S1x1024) broadcasts_S1x1024_S512x1024

/-- The unnormalised weights of the block. -/
def expv (A : FVec Ideal S512x64 .f32) (B : FVec Ideal S64x1024 .f32) : FVec Ideal S512x1024 .f32 :=
  exp (mulf (sqrt (maximumf (subf (addf (rowNorm A) (colNorm B)) (mulf (broadcast S512x1024 (Scalar.ofBits .f32 0x40000000#32)) (cross A B)))
    (broadcast S512x1024 (Scalar.ofBits .f32 0x00000000#32)))) (broadcast S512x1024 (Scalar.ofBits .f32 0xBF000000#32)))

/-- Each row divided by its sum. -/
def normRows (e : FVec Ideal S512x1024 .f32) : FVec Ideal S512x1024 .f32 :=
  divf e (broadcastTo S512x1024 (shapeCast S512x1 (multiReduction .add [1] S512 e 0x00000000#32 reduces_S512x1024_S512 (.inl rfl) rfl) shapeCasts_S512_S512x1) broadcasts_S512x1_S512x1024)

/-- The stored value is these pieces composed. -/
theorem pay_eq (x0 : Vec Ideal S512x128 .f32) (x1 : Vec Ideal S1024x128 .f32) (x2 : Vec Ideal S64x128 .f32) :
    k0_pay1 (F := Ideal) x0 x1 x2 = normRows (expv (qW x0 x2) (kW x1 x2)) := rfl

/-! ## Each piece at an index -/

theorem qW_apply (x0 : Vec Ideal S512x128 .f32) (x2 : Vec Ideal S64x128 .f32) (r : Fin 512) (c : Fin 64) :
    qW x0 x2 (ix2 r c) = Spec.projQ (fun d => x0 (ix2 r d)) x2 c := by
  unfold qW Spec.projQ
  simp only [matmul]
  rw [Ideal.matmul_constant_zero_apply, ← Equiv.sum_comp (contrEquiv1 dot_S512x128_S64x128_S512x64_1_1_0_0_n_n 128 rfl rfl).symm]
  refine Finset.sum_congr rfl fun k _ => ?_
  have hk := contrEquiv1_symm_val dot_S512x128_S64x128_S512x64_1_1_0_0_n_n 128 rfl rfl k
  have el : dot_S512x128_S64x128_S512x64_1_1_0_0_n_n.lhsIdx (ix2 r c) ((contrEquiv1 dot_S512x128_S64x128_S512x64_1_1_0_0_n_n 128 rfl rfl).symm k) = ix2 r k := funext fun a => Fin.ext (by
    match a with
    | ⟨0, _⟩ => exact lhs_qW_free _ _
    | ⟨1, _⟩ => exact (lhs_qW_contr _ _).trans hk)
  have er : dot_S512x128_S64x128_S512x64_1_1_0_0_n_n.rhsIdx (ix2 r c) ((contrEquiv1 dot_S512x128_S64x128_S512x64_1_1_0_0_n_n 128 rfl rfl).symm k) = ix2 c k := funext fun a => Fin.ext (by
    match a with
    | ⟨0, _⟩ => exact rhs_qW_free _ _
    | ⟨1, _⟩ => exact (rhs_qW_contr _ _).trans hk)
  rw [el, er]
  rfl

theorem kW_apply (x1 : Vec Ideal S1024x128 .f32) (x2 : Vec Ideal S64x128 .f32) (c : Fin 64) (j : Fin 1024) :
    kW x1 x2 (ix2 c j) = Spec.projK x1 x2 c j := by
  unfold kW Spec.projK
  simp only [matmul]
  rw [Ideal.matmul_constant_zero_apply, ← Equiv.sum_comp (contrEquiv1 dot_S64x128_S1024x128_S64x1024_1_1_0_0_n_n 128 rfl rfl).symm]
  refine Finset.sum_congr rfl fun k _ => ?_
  have hk := contrEquiv1_symm_val dot_S64x128_S1024x128_S64x1024_1_1_0_0_n_n 128 rfl rfl k
  have el : dot_S64x128_S1024x128_S64x1024_1_1_0_0_n_n.lhsIdx (ix2 c j) ((contrEquiv1 dot_S64x128_S1024x128_S64x1024_1_1_0_0_n_n 128 rfl rfl).symm k) = ix2 c k := funext fun a => Fin.ext (by
    match a with
    | ⟨0, _⟩ => exact lhs_kW_free _ _
    | ⟨1, _⟩ => exact (lhs_kW_contr _ _).trans hk)
  have er : dot_S64x128_S1024x128_S64x1024_1_1_0_0_n_n.rhsIdx (ix2 c j) ((contrEquiv1 dot_S64x128_S1024x128_S64x1024_1_1_0_0_n_n 128 rfl rfl).symm k) = ix2 j k := funext fun a => Fin.ext (by
    match a with
    | ⟨0, _⟩ => exact rhs_kW_free _ _
    | ⟨1, _⟩ => exact (rhs_kW_contr _ _).trans hk)
  rw [el, er]
  rfl

theorem cross_apply (A : FVec Ideal S512x64 .f32) (B : FVec Ideal S64x1024 .f32) (r : Fin 512) (j : Fin 1024) :
    cross A B (ix2 r j) = ∑ c : Fin 64, A (ix2 r c) * B (ix2 c j) := by
  unfold cross
  simp only [matmul]
  rw [Ideal.matmul_constant_zero_apply, ← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r j) ((contrEquiv1 dot_S512x64_S64x1024_S512x1024_1_0_0_1_n_n 64 rfl rfl).symm k) = ix2 r k := funext fun a => Fin.ext (by
    match a with
    | ⟨0, _⟩ => exact lhs_cross_free _ _
    | ⟨1, _⟩ => exact (lhs_cross_contr _ _).trans hk)
  have er : dot_S512x64_S64x1024_S512x1024_1_0_0_1_n_n.rhsIdx (ix2 r j) ((contrEquiv1 dot_S512x64_S64x1024_S512x1024_1_0_0_1_n_n 64 rfl rfl).symm k) = ix2 k j := funext fun a => Fin.ext (by
    match a with
    | ⟨0, _⟩ => exact (rhs_cross_contr _ _).trans hk
    | ⟨1, _⟩ => exact rhs_cross_free _ _)
  rw [el, er]
  rfl

theorem rowNorm_apply (A : FVec Ideal S512x64 .f32) (r : Fin 512) (j : Fin 1024) :
    rowNorm A (ix2 r j) = ∑ c : Fin 64, A (ix2 r c) * A (ix2 r c) :=
  (broadcastTo_a1_ab_apply _ broadcasts_S512x1_S512x1024 r j).trans
    ((shapeCast_a_a1_apply _ shapeCasts_S512_S512x1 r (0 : Fin 1)).trans
      (multiReduction_add_cols_apply (mulf A A) reduces_S512x64_S512 (.inl rfl) rfl r))

theorem colNorm_apply (B : FVec Ideal S64x1024 .f32) (r : Fin 512) (j : Fin 1024) :
    colNorm B (ix2 r j) = ∑ c : Fin 64, B (ix2 c j) * B (ix2 c j) :=
  (broadcastTo_1b_ab_apply _ broadcasts_S1x1024_S512x1024 r j).trans
    ((shapeCast_a_1a_apply _ shapeCasts_S1024_S1x1024 (0 : Fin 1) j).trans
      (multiReduction_add_rows_apply (mulf B B) reduces_S64x1024_S1024 (.inl rfl) rfl j))

theorem expv_apply (A : FVec Ideal S512x64 .f32) (B : FVec Ideal S64x1024 .f32) (r : Fin 512) (j : Fin 1024) :
    expv A B (ix2 r j) = Ideal.exp (Ideal.sqrt (max
      (((∑ c : Fin 64, A (ix2 r c) * A (ix2 r c)) + ∑ c : Fin 64, B (ix2 c j) * B (ix2 c j))
        - Ideal.ofBits .f32 0x40000000#32 * ∑ c : Fin 64, A (ix2 r c) * B (ix2 c j))
      (Ideal.ofBits .f32 0x00000000#32)) * Ideal.ofBits .f32 0xBF000000#32) := by
  show Ideal.exp (Ideal.sqrt (max ((rowNorm A (ix2 r j) + colNorm B (ix2 r j)) - Ideal.ofBits .f32 0x40000000#32 * cross A B (ix2 r j))
    (Ideal.ofBits .f32 0x00000000#32)) * Ideal.ofBits .f32 0xBF000000#32) = _
  rw [rowNorm_apply, colNorm_apply, cross_apply]

theorem normRows_apply (e : FVec Ideal S512x1024 .f32) (r : Fin 512) (j : Fin 1024) :
    normRows e (ix2 r j) = Ideal.div (e (ix2 r j)) (∑ j' : Fin 1024, e (ix2 r j')) := by
  show Ideal.div (e (ix2 r j)) (broadcastTo S512x1024 (shapeCast S512x1 (multiReduction .add [1] S512 e 0x00000000#32 reduces_S512x1024_S512 (.inl rfl) rfl) shapeCasts_S512_S512x1) broadcasts_S512x1_S512x1024 (ix2 r j)) = _
  refine congrArg (Ideal.div (e (ix2 r j))) ?_
  exact (broadcastTo_a1_ab_apply _ broadcasts_S512x1_S512x1024 r j).trans
    ((shapeCast_a_a1_apply _ shapeCasts_S512_S512x1 r (0 : Fin 1)).trans
      (multiReduction_add_cols_apply e reduces_S512x1024_S512 (.inl rfl) rfl r))

/-! ## The store at an index -/

/-- Entry `(r, j)` of the stored block is the result row of query row `r` of the block, at key `j`. -/
theorem pay_apply (x0 : Vec Ideal S512x128 .f32) (x1 : Vec Ideal S1024x128 .f32) (x2 : Vec Ideal S64x128 .f32)
    (r : Fin 512) (j : Fin 1024) :
    k0_pay1 (F := Ideal) x0 x1 x2 (ix2 r j) = Spec.rowOut (fun d => x0 (ix2 r d)) x1 x2 j := by
  have he : ∀ j' : Fin 1024, expv (qW x0 x2) (kW x1 x2) (ix2 r j') = Spec.expScore (fun d => x0 (ix2 r d)) x1 x2 j' := by
    intro j'
    rw [expv_apply]
    unfold Spec.expScore Spec.dist2
    simp only [qW_apply, kW_apply]
  rw [pay_eq, normRows_apply]
  unfold Spec.rowOut
  simp only [he]

end Cert.KernelIdeal.Body

end
-- ==== Proof.KernelValue.lean ====
/-
  The kernel's result array after the run is `Spec.G` of the three argument arrays.

  The grid has four points; point `t` reads query rows `512 t … 512 t + 511` (a block that moves with the output's),
  the whole key array and the whole weight array (blocks that never move), and writes back rows
  `512 t … 512 t + 511` of the result, all 1024 columns. Entry `(r, j)` of what it writes is the result row of query
  row `512 t + r` at key `j`, which is `Spec.G` at `(512 t + r, j)`: what each point writes back is its block of `G`.
  Row `n` of the result lies in the block of point `n / 512`, so the four blocks cover the array, and the array
  ends holding `G`.
-/
import proofs.«427406_j33509334843946_3_alg».proof.Proof.Gen.KernelIdeal.Value
import proofs.«427406_j33509334843946_3_alg».proof.Proof.KernelPayload

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The block indices over the grid: the query block and the result block are block `t` of their row axis and the
    one block of their column axis; the keys and the weight are always their one block. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row block of the result is some point's. -/
theorem idx_onto : ∀ b : Fin 4, ∃ t : Fin cfg0.N, win0_3.index t = ![b.val, 0] :=
  (by decide +kernel : ∀ b : Fin 4, ∃ t : Fin grid0.N, win0_3.index t = ![b.val, 0])

/-- A stored block against the whole result: if `x0` holds, in its row `y 0`, row `i 0` of the queries `q`, and the
    other two loads are the whole keys and weight, then the stored entry `y` is `G q k W` at `i` when `i` has `y`'s
    column. -/
theorem block_eq (q : Vec Ideal S2048x128 .f32) (k : Vec Ideal S1024x128 .f32) (W : Vec Ideal S64x128 .f32)
    (x0 : Vec Ideal S512x128 .f32) (x1 : Vec Ideal S1024x128 .f32) (x2 : Vec Ideal S64x128 .f32)
    (y : S512x1024.Idx) (i : S2048x1024.Idx)
    (h0 : ∀ d : Fin 128, x0 (ix2 (y 0) d) = q (ix2 (i 0) d)) (h1 : x1 = k) (h2 : x2 = W) (hc : (i 1).val = (y 1).val) :
    k0_pay1 (F := Ideal) x0 x1 x2 y = Spec.G q k W i := by
  subst h1 h2
  obtain ⟨r, j, rfl⟩ : ∃ (r : Fin 512) (j : Fin 1024), y = ix2 r j := ⟨y 0, y 1, eq_ix2 y⟩
  rw [Body.pay_apply]
  unfold Spec.G
  have e0 : (fun d => x0 (ix2 r d)) = fun d => q (ix2 (i 0) d) := funext h0
  have e1 : j = i 1 := Fin.ext hc.symm
  rw [e0, e1]

/-- WHAT POINT `t` WRITES BACK is block `t` of `G` of the argument arrays. -/
theorem flushed_eq (c : Dev nD) (t : Fin cfg0.N) :
    (dats m 0 c).flushed 3 t
      = ((cfg0.win 3).blk t).view.read (Elt Ideal) (Spec.G (V m c main_arg0) (V m c main_arg1) (V m c main_arg2)) := by
  rw [Value.flushed3]
  unfold out0_3
  rw [View.canon_unit_zero zero_off]
  simp only [View.ld_unit_zero (S := S512x128) zero_off, View.ld_unit_zero (S := S1024x128) zero_off,
    View.ld_unit_zero (S := S64x128) zero_off]
  obtain ⟨e00, e01, e10, e11, e20, e21, e31⟩ := idx_facts t
  funext y
  show k0_pay1 (F := Ideal) (iblk m c 0 t) (iblk m c 1 t) (iblk m c 2 t) y
    = Spec.G (V m c main_arg0) (V m c main_arg1) (V m c main_arg2) (((cfg0.win 3).blk t).view.emb y)
  refine block_eq (V m c main_arg0) (V m c main_arg1) (V m c main_arg2) (iblk m c 0 t) (iblk m c 1 t) (iblk m c 2 t) y _ ?_ ?_ ?_ ?_
  · -- row `y 0` of the query block is row `512 t + y 0` of the queries
    intro d
    show V m c main_arg0 (((cfg0.win 0).blk t).view.emb (ix2 (y 0) d)) = V m c main_arg0 (ix2 ((((cfg0.win 3).blk t).view.emb y) 0) d)
    refine congrArg _ (funext fun a => Fin.ext ?_)
    match a with
    | ⟨0, _⟩ => show win0_0.index t (0 : Fin 2) * 512 + 1 * (y 0).val = win0_3.index t (0 : Fin 2) * 512 + 1 * (y 0).val; omega
    | ⟨1, _⟩ => show win0_0.index t (1 : Fin 2) * 128 + 1 * d.val = d.val; omega
  · -- the key block is the whole key array
    funext z
    show V m c main_arg1 (((cfg0.win 1).blk t).view.emb z) = V m c main_arg1 z
    refine congrArg _ (funext fun a => Fin.ext ?_)
    match a with
    | ⟨0, _⟩ => show win0_1.index t (0 : Fin 2) * 1024 + 1 * (z 0).val = (z 0).val; omega
    | ⟨1, _⟩ => show win0_1.index t (1 : Fin 2) * 128 + 1 * (z 1).val = (z 1).val; omega
  · -- the weight block is the whole weight array
    funext z
    show V m c main_arg2 (((cfg0.win 2).blk t).view.emb z) = V m c main_arg2 z
    refine congrArg _ (funext fun a => Fin.ext ?_)
    match a with
    | ⟨0, _⟩ => show win0_2.index t (0 : Fin 2) * 64 + 1 * (z 0).val = (z 0).val; omega
    | ⟨1, _⟩ => show win0_2.index t (1 : Fin 2) * 128 + 1 * (z 1).val = (z 1).val; omega
  · -- the result block spans every column
    show win0_3.index t (1 : Fin 2) * 1024 + 1 * (y 1).val = (y 1).val
    omega

/-- An index of the result is in point `t`'s block iff each coordinate is in the block's range on its axis. -/
theorem mem_blk (t : Fin cfg0.N) (i : S2048x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v0).slice (win0_3.rect t)).set ↔ _
  rw [View.set_slice_whole, Rect.mem_set_unit]
  exact Iff.rfl

/-- Row `n` of the result is in the block of the point whose row block is `n / 512`: the blocks cover the array. -/
theorem cover (i : S2048x1024.Idx) :
    ∃ t : Fin cfg0.N, (cfg0.win 3).flush t = true ∧ i ∈ ((cfg0.win 3).blk t).view.set := by
  have hi0 : (i 0).val < 2048 := (i 0).isLt
  have hi1 : (i 1).val < 1024 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE ARRAY after the run is `G` of the argument arrays. -/
theorem final (c : Dev nD) :
    (dats m 0 c).arrAt 3 cfg0.N
      = Spec.G (m ((c : Thread nD τ).loc main_arg0)) (m ((c : Thread nD τ).loc main_arg1)) (m ((c : Thread nD τ).loc main_arg2)) :=
  (dats m 0 c).arrAt_eq_of_cover 3 _ (fun t _ => flushed_eq m c t) cover

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference's result, on real inputs, is the real softmax row; so it is `Spec.G` of the inputs.

  Stage by stage, at an index, with the three arrays real:
    the projection of the difference of query row `n` and key `j` onto feature `c` is `Spec.projR`;
    the sum of its squares over `c` is `Spec.distR`, a nonnegative real, so its root is the real root;
    minus the root times one half is `Spec.scoreR`;
    the running maximum over the keys, started at −∞, of these reals is some real `M` (only that it IS a real matters);
    the exponentials of the scores less `M`, divided by their sum over the keys, are the softmax of the scores
    (a softmax does not see a common shift): `Spec.rowR`, which is what `Spec.rowOut` is on real inputs.
-/
import proofs.«427406_j33509334843946_3_alg».proof.Proof.Gen.ReferenceIdeal.Read
import proofs.«427406_j33509334843946_3_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Idealize.ShloMosaic.StableHlo

variable (q : Spec.SQ.Idx → ℝ) (k : Spec.SK.Idx → ℝ) (W : Spec.SW.Idx → ℝ)

/-- The three real arrays read in the extended reals, as the reference's operands. -/
abbrev Q : (⟨S2048x128, .f32⟩ : BufTy).Contents (Elt Ideal) := fun i => (q i : EReal)
abbrev K : (⟨S1024x128, .f32⟩ : BufTy).Contents (Elt Ideal) := fun i => (k i : EReal)
abbrev Wt : (⟨S64x128, .f32⟩ : BufTy).Contents (Elt Ideal) := fun i => (W i : EReal)

/-- Row `n` of the queries. -/
abbrev rowOf (n : Fin 2048) : Fin 128 → ℝ := fun d => q (ix2 n d)

/-- The projected difference. -/
theorem v5_eq (n : Fin 2048) (j : Fin 1024) (c : Fin 64) :
    val_main_v5 (F := Ideal) (Q q) (K k) (Wt W) (ix3 n j c) = ((Spec.projR (rowOf q n) k W j c : ℝ) : EReal) := by
  rw [val_main_v5_apply]
  unfold Spec.projR
  rw [RealLaws.coe_sum]
  refine Finset.sum_congr rfl fun d _ => ?_
  rw [val_main_v4_apply, val_main_v2_apply, val_main_v0_apply, val_main_v3_apply, val_main_v1_apply]
  have e0 : idx_main_v0 (idx_main_v2 (lidx_main_v5 (ix3 n j c) d)) = ix2 n d :=
    funext fun a => Fin.ext (by match a with | ⟨0, _⟩ => rfl | ⟨1, _⟩ => rfl)
  have e1 : idx_main_v1 (idx_main_v3 (lidx_main_v5 (ix3 n j c) d)) = ix2 j d :=
    funext fun a => Fin.ext (by match a with | ⟨0, _⟩ => rfl | ⟨1, _⟩ => rfl)
  have e2 : ridx_main_v5 (ix3 n j c) d = ix2 c d :=
    funext fun a => Fin.ext (by match a with | ⟨0, _⟩ => rfl | ⟨1, _⟩ => rfl)
  rw [e0, e1, e2]
  show ((q (ix2 n d) : EReal) - (k (ix2 j d) : EReal)) * (W (ix2 c d) : EReal) = _
  rw [← EReal.coe_sub, ← EReal.coe_mul]

/-- Its squared length. -/
theorem v7_eq (n : Fin 2048) (j : Fin 1024) :
    val_main_v7 (F := Ideal) (Q q) (K k) (Wt W) (ix2 n j) = ((Spec.distR (rowOf q n) k W j : ℝ) : EReal) := by
  rw [val_main_v7_apply, val_main_cst_apply, Ideal.ofBits_def, Ideal.ofBits_zero_f32, zero_add]
  unfold Spec.distR
  rw [RealLaws.coe_sum]
  refine Finset.sum_congr rfl fun c _ => ?_
  have e : idx_main_v7 (ix2 n j) c = ix3 n j c :=
    funext fun a => Fin.ext (by match a with | ⟨0, _⟩ => rfl | ⟨1, _⟩ => rfl | ⟨2, _⟩ => rfl)
  rw [val_main_v6_apply, e, v5_eq, Ideal.mulf_def, ← EReal.coe_mul]

/-- The score. -/
theorem v11_eq (n : Fin 2048) (j : Fin 1024) :
    val_main_v11 (F := Ideal) (Q q) (K k) (Wt W) (ix2 n j) = ((Spec.scoreR (rowOf q n) k W j : ℝ) : EReal) := by
  rw [val_main_v11_apply, val_main_v9_apply, val_main_v8_apply, v7_eq, val_main_v10_apply, val_main_cst_0_apply,
    Ideal.hostUnary_sqrt_def, Ideal.sqrt_coe, if_neg (not_lt.mpr (Spec.distR_nonneg _ _ _ _)), Ideal.hostNegf_def,
    Ideal.negf_def, Ideal.ofBits_def, Consts.ofBits_half, Ideal.mulf_def, ← EReal.coe_neg, ← EReal.coe_mul]
  rfl

/-- The maximum of a row of scores is a real. -/
theorem v12_eq (n : Fin 2048) :
    ∃ M : ℝ, val_main_v12 (F := Ideal) (Q q) (K k) (Wt W) (ix1 n) = (M : EReal) := by
  have hR : S2048x1024.Reduces [1] S2048 := by decide
  unfold val_main_v12
  rw [Host.reduce_eq_fold_single FloatOps.maximumf _ _ reducesTo_S2048x1024_S2048_d1 hR h_S_]
  have key : ∀ j : Fin 1024, val_main_v11 (F := Ideal) (Q q) (K k) (Wt W) (hR.lift (ix1 n) j)
      = ((Spec.scoreR (rowOf q n) k W j : ℝ) : EReal) := by
    intro j
    have e : hR.lift (ix1 n) j = ix2 n j :=
      funext fun a => Fin.ext (by match a with | ⟨0, _⟩ => rfl | ⟨1, _⟩ => rfl)
    rw [e, v11_eq]
  have hfun : (val_main_v11 (F := Ideal) (Q q) (K k) (Wt W) ∘ hR.lift (ix1 n))
      = fun j : Fin 1024 => ((Spec.scoreR (rowOf q n) k W j : ℝ) : EReal) := funext key
  rw [hfun, val_main_cst_1_apply, Ideal.ofBits_def, Consts.ofBits_neg_inf]
  haveI : Nonempty (Fin 1024) := ⟨0⟩
  exact RealLaws.fold_max_coe (fun j : Fin 1024 => Spec.scoreR (rowOf q n) k W j)

/-- The shift subtracted from every score of row `n`: the larger of −∞ and the row's maximum. -/
theorem v16_eq (n : Fin 2048) (j : Fin 1024) (M : ℝ)
    (hM : val_main_v12 (F := Ideal) (Q q) (K k) (Wt W) (ix1 n) = (M : EReal)) :
    val_main_v16 (F := Ideal) (Q q) (K k) (Wt W) (ix2 n j) = (M : EReal) := by
  rw [val_main_v16_apply, val_main_v15_apply, val_main_v14_apply, val_main_v13_apply, val_main_cst_2_apply]
  have e : idx_main_v15 (idx_main_v16 (ix2 n j)) = ix1 n :=
    funext fun a => Fin.ext (by match a with | ⟨0, _⟩ => rfl)
  rw [e, hM, Ideal.ofBits_def, Consts.ofBits_neg_inf, Ideal.maximumf_def]
  exact max_bot_left _

/-- The shifted exponentials. -/
theorem v18_eq (n : Fin 2048) (j : Fin 1024) (M : ℝ)
    (hM : val_main_v12 (F := Ideal) (Q q) (K k) (Wt W) (ix1 n) = (M : EReal)) :
    val_main_v18 (F := Ideal) (Q q) (K k) (Wt W) (ix2 n j) = ((Real.exp (Spec.scoreR (rowOf q n) k W j - M) : ℝ) : EReal) := by
  rw [val_main_v18_apply, val_main_v17_apply, v11_eq, v16_eq q k W n j M hM, Ideal.subf_def, ← EReal.coe_sub,
    Ideal.hostUnary_exp_def, Ideal.exp_coe]

/-- The reference's result at `(n, j)` is the softmax row of query row `n`, at key `j`. -/
theorem v22_eq (n : Fin 2048) (j : Fin 1024) :
    val_main_v22 (F := Ideal) (Q q) (K k) (Wt W) (ix2 n j) = ((Spec.rowR (rowOf q n) k W j : ℝ) : EReal) := by
  obtain ⟨M, hM⟩ := v12_eq q k W n
  rw [val_main_v22_apply, val_main_v21_apply, val_main_v20_apply, val_main_v19_apply, val_main_cst_3_apply,
    Ideal.ofBits_def, Ideal.ofBits_zero_f32, zero_add, v18_eq q k W n j M hM]
  have hs : (∑ j' : Fin 1024, val_main_v18 (F := Ideal) (Q q) (K k) (Wt W) (idx_main_v19 (idx_main_v20 (idx_main_v21 (ix2 n j))) j'))
      = ((∑ j' : Fin 1024, Real.exp (Spec.scoreR (rowOf q n) k W j' - M) : ℝ) : EReal) := by
    rw [RealLaws.coe_sum]
    refine Finset.sum_congr rfl fun j' _ => ?_
    have e : idx_main_v19 (idx_main_v20 (idx_main_v21 (ix2 n j))) j' = ix2 n j' :=
      funext fun a => Fin.ext (by match a with | ⟨0, _⟩ => rfl | ⟨1, _⟩ => rfl)
    rw [e, v18_eq q k W n j' M hM]
  have hpos : (0 : ℝ) < ∑ j' : Fin 1024, Real.exp (Spec.scoreR (rowOf q n) k W j' - M) :=
    Finset.sum_pos (fun j' _ => Real.exp_pos _) ⟨0, Finset.mem_univ _⟩
  rw [hs, Ideal.hostDivf_def, Ideal.div_coe hpos.ne', ← EReal.coe_mul, mul_one_div, RealLaws.softmax_shift]
  rfl

/-- On arrays whose every entry is a real, the reference's result is `Spec.G` of them. -/
theorem ref_eq_G (x0 : (⟨S2048x128, .f32⟩ : BufTy).Contents (Elt Ideal)) (x1 : (⟨S1024x128, .f32⟩ : BufTy).Contents (Elt Ideal))
    (x2 : (⟨S64x128, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal)) :
    val_main_v22 (F := Ideal) x0 x1 x2 = Spec.G x0 x1 x2 := by
  choose q hq using h0
  choose k hk using h1
  choose W hW using h2
  obtain rfl : x0 = Q q := funext hq
  obtain rfl : x1 = K k := funext hk
  obtain rfl : x2 = Wt W := funext hW
  funext i
  obtain ⟨n, j, rfl⟩ : ∃ (n : Fin 2048) (j : Fin 1024), i = ix2 n j := ⟨i 0, i 1, eq_ix2 i⟩
  rw [v22_eq]
  exact (Spec.rowOut_coe (rowOf q n) k W j).symm

end Cert.ReferenceIdeal.RefValue

end
-- ==== Proof.Finite.lean ====
/-
  The precondition says every entry of the three arrays is a real.

  It is the conjunction of three `jnp.all (|x| < +∞)`, one per array. An extended real whose absolute value
  `max x (−x)` is strictly below `+∞` is neither `+∞` nor `−∞` (for both, that maximum is `+∞`), so it is a real.
-/
import proofs.«427406_j33509334843946_3_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- The positive-infinity pattern denotes `⊤`. -/
theorem ofBits_pos_inf : Ideal.ofBits .f32 0x7F800000#32 = (⊤ : EReal) := by
  simp [Ideal.ofBits, Ideal.ieee]

/-- An entry that passes the test `|x| < +∞` is a real. -/
theorem real_of_elt (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [ofBits_pos_inf] at h'
  induction x using EReal.rec with
  | bot => simp [Ideal.cmp] at h'
  | top => simp [Ideal.cmp] at h'
  | coe r => exact ⟨r, rfl⟩

/-- Under the precondition the three arrays are arrays of reals. -/
theorem reals_of_pre [Cert.Pre_finite_inputs.Facts] (x0 : FVec Ideal S2048x128 .f32) (x1 : FVec Ideal S1024x128 .f32)
    (x2 : FVec Ideal S64x128 .f32) (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h1 := congrFun h ValueIdx.ix0
  dsimp only [Cert.Pre_finite_inputs.fn] at h1
  obtain ⟨h38, h12⟩ := IntOp.andi_eq_one.mp h1
  obtain ⟨h3, h7⟩ := IntOp.andi_eq_one.mp h38
  exact ⟨fun i => real_of_elt _ (Host.reduce_andi_all _ _ _ _ _ h3 i),
    fun i => real_of_elt _ (Host.reduce_andi_all _ _ _ _ _ h7 i),
    fun i => real_of_elt _ (Host.reduce_andi_all _ _ _ _ _ h12 i)⟩

end Cert.Finite

end
-- ==== Proof.lean ====
/-
  Pairwise-distance softmax: a fused kernel against its plain reference, over the extended reals.

  For queries `q` (2048 × 128), keys `k` (1024 × 128) and a weight `W` (64 × 128) the reference computes, for each
  query `n`, the softmax over the keys `j` of `−½ · ‖(q_n − k_j) Wᵀ‖`, subtracting the row maximum before the
  exponential as a softmax routine does. The kernel never forms the differences: it projects queries and keys
  separately (`a_n = q_n Wᵀ`, `b_j = k_j Wᵀ`), gets the squared distance as `‖a_n‖² + ‖b_j‖² − 2 a_n·b_j` from one
  more matrix product, clamps it at zero, takes the root, and normalises `exp (−½ ·)` by its row sum with no shift;
  it does so for 512 queries at a time over a grid of four points.

  On REAL inputs the two agree exactly: the projection is linear, so `a_n − b_j = (q_n − k_j) Wᵀ`; the expanded
  square is `‖a_n − b_j‖² ≥ 0`, so the clamp is idle and the root is the real root; and a softmax does not see a
  common shift. Linearity and the cancelling of the shift fail at infinities, so the precondition — every entry of
  the three arrays finite — is used, and it is used on the reference's side only: the kernel's run is read as the
  function `Spec.G` of its arguments whatever they are, and the reference's result is shown to be `Spec.G` of real
  arguments.

  The modules: RealLaws (the three real laws and sums read in the extended reals), Consts (the float literals),
  Spec (`G`, and what it is on reals), LibKeepdims (a kept-axis sum at an index), KernelPayload (the kernel's one
  store at an index), KernelValue (from the four written blocks to the whole array), RefValue (the reference stage
  by stage on reals), Finite (the precondition gives reals). The two format round trips the idealization removed
  (`preserves`) are identities at the extended reals by definition.
-/
import proofs.«427406_j33509334843946_3_alg».proof.Defs
import proofs.«427406_j33509334843946_3_alg».proof.Proof.Gen.Kernel
import proofs.«427406_j33509334843946_3_alg».proof.Proof.Gen.Kernel.Skeleton
import proofs.«427406_j33509334843946_3_alg».proof.Proof.Gen.Kernel.Launch
import proofs.«427406_j33509334843946_3_alg».proof.Proof.Gen.Kernel.Points
import proofs.«427406_j33509334843946_3_alg».proof.Proof.Gen.Kernel.Frame
import proofs.«427406_j33509334843946_3_alg».proof.Proof.Gen.KernelIdeal
import proofs.«427406_j33509334843946_3_alg».proof.Proof.Gen.KernelIdeal.Skeleton
import proofs.«427406_j33509334843946_3_alg».proof.Proof.Gen.KernelIdeal.Launch
import proofs.«427406_j33509334843946_3_alg».proof.Proof.Gen.KernelIdeal.Points
import proofs.«427406_j33509334843946_3_alg».proof.Proof.Gen.KernelIdeal.Frame
import proofs.«427406_j33509334843946_3_alg».proof.Proof.Gen.ReferenceIdeal
import proofs.«427406_j33509334843946_3_alg».proof.Proof.Gen.Pre_finite_inputs
import proofs.«427406_j33509334843946_3_alg».proof.Proof.Gen.KernelIdeal.Value
import proofs.«427406_j33509334843946_3_alg».proof.Proof.Gen.ReferenceIdeal.Run
import proofs.«427406_j33509334843946_3_alg».proof.Proof.Gen.ReferenceIdeal.Read
import proofs.«427406_j33509334843946_3_alg».proof.Proof.KernelValue
import proofs.«427406_j33509334843946_3_alg».proof.Proof.RefValue
import proofs.«427406_j33509334843946_3_alg».proof.Proof.Finite
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of array operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The two projections are rounded to bf16 and widened again before they are squared; on the extended reals a change
    of format is the identity, so both round trips are. -/
theorem preserves : Cert.preserves_Kernel_KernelIdeal :=
  ⟨IdealRules.truncf_extf.statement _ .f32 .bf16, IdealRules.truncf_extf.statement _ .f32 .bf16⟩

/-- Both programs end with `Spec.G` of the arguments: the kernel whatever they are, the reference because the
    precondition makes them real. -/
theorem algebraic : Cert.algebraic_KernelIdeal_ReferenceIdeal := by
  intro m ρ m' ρ' hpre hagree
  refine ⟨fun c => Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2⟩ := Cert.Finite.reals_of_pre _ _ _ (hpre c)
  rw [Cert.ReferenceIdeal.Read.val_main_v22_eq, (hagree c).1, (hagree c).2.1, (hagree c).2.2]
  exact Cert.ReferenceIdeal.RefValue.ref_eq_G _ _ _ r0 r1 r2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
